-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  main_v28

def fn {F : FTy → Type} [FloatOps F] (main_arg0 : FVec F S4096x2048 .f32) (main_arg1 : FVec F S8192x2048 .f32) (main_arg2 : FVec F S8192 .f32) (main_arg3 : FVec F S8192 .f32) (main_arg4 : FVec F S8192 .f32) (main_arg5 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S4096x8192 : Shape := ⟨2, ![4096, 8192]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x2x512 : Shape := ⟨3, ![512, 2, 512]⟩
abbrev S512x2 : Shape := ⟨2, ![512, 2]⟩
abbrev S512x2x1 : Shape := ⟨3, ![512, 2, 1]⟩

abbrev nBuf : Space → Nat
  | .hbm => 7
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S4096x8192, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S512x2x512 : S512x1024.ShapeCasts S512x2x512
  reduces_S512x2x512_S512x2 : S512x2x512.Reduces [2] S512x2
  shapeCasts_S512x2_S512x2x1 : S512x2.ShapeCasts S512x2x1
  broadcasts_S512x2x1_S512x2x512 : S512x2x1.Broadcasts S512x2x512
  shapeCasts_S512x2x512_S512x1024 : S512x2x512.ShapeCasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x2048.size a
  hwx0_0 : ∀ i : grid0.Coords, EltTy.bits .f32 = 32 ∨ (Rect.block (s := S4096x2048) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x2048.size a
  hwx0_1 : ∀ i : grid0.Coords, EltTy.bits .f32 = 32 ∨ (Rect.block (s := S8192x2048) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S8192.size a
  hwx0_3 : ∀ i : grid0.Coords, EltTy.bits .f32 = 32 ∨ (Rect.block (s := S8192) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S8192.size a
  hwx0_4 : ∀ i : grid0.Coords, EltTy.bits .f32 = 32 ∨ (Rect.block (s := S8192) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S8192.size a
  hwx0_5 : ∀ i : grid0.Coords, EltTy.bits .f32 = 32 ∨ (Rect.block (s := S8192) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x8192.size a
  hwx0_6 : ∀ i : grid0.Coords, EltTy.bits .f32 = 32 ∨ (Rect.block (s := S4096x8192) S512x1024.size (cc0_transform_6 i) (hinb0_6 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S4096x8192 : Shape := ⟨2, ![4096, 8192]⟩
abbrev S1x8192 : Shape := ⟨2, ![1, 8192]⟩
abbrev S4096x16x512 : Shape := ⟨3, ![4096, 16, 512]⟩
abbrev S_ : Shape := ⟨0, ![]⟩
abbrev S4096x16 : Shape := ⟨2, ![4096, 16]⟩
abbrev S4096x16x1 : Shape := ⟨3, ![4096, 16, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S2048x8192, .f32⟩
  | .hbm, ⟨7, _⟩ => ⟨S4096x8192, .f32⟩
  | .hbm, ⟨8, _⟩ => ⟨S1x8192, .f32⟩
  | .hbm, ⟨9, _⟩ => ⟨S4096x8192, .f32⟩
  | .hbm, ⟨10, _⟩ => ⟨S4096x8192, .f32⟩
  | .hbm, ⟨11, _⟩ => ⟨S4096x16x512, .f32⟩
  | .hbm, ⟨12, _⟩ => ⟨S_, .f32⟩
  | .hbm, ⟨13, _⟩ => ⟨S4096x16, .f32⟩
  | .hbm, ⟨14, _⟩ => ⟨S4096x16x1, .f32⟩
  | .hbm, ⟨15, _⟩ => ⟨S_, .f32⟩
  | .hbm, ⟨16, _⟩ => ⟨S4096x16x1, .f32⟩
  | .hbm, ⟨17, _⟩ => ⟨S4096x16x1, .f32⟩
  | .hbm, ⟨18, _⟩ => ⟨S4096x16x512, .f32⟩
  | .hbm, ⟨19, _⟩ => ⟨S4096x16x512, .f32⟩
  | .hbm, ⟨20, _⟩ => ⟨S4096x16x512, .f32⟩
  | .hbm, ⟨21, _⟩ => ⟨S_, .f32⟩
  | .hbm, ⟨22, _⟩ => ⟨S4096x16, .f32⟩
  | .hbm, ⟨23, _⟩ => ⟨S4096x16x1, .f32⟩
  | .hbm, ⟨24, _⟩ => ⟨S_, .f32⟩
  | .hbm, ⟨25, _⟩ => ⟨S4096x16x1, .f32⟩
  | .hbm, ⟨26, _⟩ => ⟨S4096x16x1, .f32⟩
  | .hbm, ⟨27, _⟩ => ⟨S4096x16x512, .f32⟩
  | .hbm, ⟨28, _⟩ => ⟨S4096x16x512, .f32⟩
  | .hbm, ⟨29, _⟩ => ⟨S_, .f32⟩
  | .hbm, ⟨30, _⟩ => ⟨S4096x16x1, .f32⟩
  | .hbm, ⟨31, _⟩ => ⟨S4096x16x1, .f32⟩
  | .hbm, ⟨32, _⟩ => ⟨S4096x16x1, .f32⟩
  | .hbm, ⟨33, _⟩ => ⟨S4096x16x512, .f32⟩
  | .hbm, ⟨34, _⟩ => ⟨S4096x16x512, .f32⟩
  | .hbm, ⟨35, _⟩ => ⟨S4096x8192, .f32⟩
  | .hbm, ⟨36, _⟩ => ⟨S1x8192, .f32⟩
  | .hbm, ⟨37, _⟩ => ⟨S4096x8192, .f32⟩
  | .hbm, ⟨38, _⟩ => ⟨S4096x8192, .f32⟩
  | .hbm, ⟨39, _⟩ => ⟨S1x8192, .f32⟩
  | .hbm, ⟨40, _⟩ => ⟨S4096x8192, .f32⟩
  | .hbm, ⟨41, _⟩ => ⟨S4096x8192, .f32⟩
  | .hbm, ⟨42, _⟩ => ⟨S4096x8192, .f32⟩
  | .hbm, ⟨43, _⟩ => ⟨S4096x8192, .f32⟩
  | .hbm, ⟨44, _⟩ => ⟨S_, .f32⟩
  | .hbm, ⟨45, _⟩ => ⟨S4096x8192, .f32⟩
  | .hbm, ⟨46, _⟩ => ⟨S4096x8192, .f32⟩
  | .hbm, ⟨47, _⟩ => ⟨S_, .f32⟩
  | .hbm, ⟨48, _⟩ => ⟨S4096x8192, .f32⟩
  | .hbm, ⟨49, _⟩ => ⟨S4096x8192, .f32⟩
  | .hbm, ⟨50, _⟩ => ⟨S4096x8192, .f32⟩
  | .hbm, ⟨51, _⟩ => ⟨S1x8192, .f32⟩
  | .hbm, ⟨52, _⟩ => ⟨S4096x8192, .f32⟩
  | .hbm, ⟨53, _⟩ => ⟨S4096x8192, .f32⟩
  | .hbm, ⟨54, _⟩ => ⟨S4096x8192, .f32⟩
  | .hbm, ⟨55, _⟩ => ⟨S4096x8192, .f32⟩
  | .hbm, ⟨56, _⟩ => ⟨S_, .f32⟩
  | .hbm, ⟨57, _⟩ => ⟨S4096x8192, .f32⟩
  | .hbm, ⟨58, _⟩ => ⟨S4096x8192, .f32⟩
  | .hbm, ⟨59, _⟩ => ⟨S_, .f32⟩
  | .hbm, ⟨60, _⟩ => ⟨S4096x8192, .f32⟩
  | .hbm, ⟨61, _⟩ => ⟨S4096x8192, .f32⟩
  | .hbm, ⟨62, _⟩ => ⟨S4096x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  shapeCasts_S4096x8192_S4096x16x512 : S4096x8192.ShapeCasts S4096x16x512
  reducesTo_S4096x16x512_S4096x16_d2 : S4096x16x512.ReducesTo [2] S4096x16
  h_S_ : 0 < S_.numel
  bcast_S4096x16_S4096x16x1_0_1 : S4096x16.BroadcastsInDim S4096x16x1 (![0, 1] : Fin 2 → Fin S4096x16x1.rank)
  bcast_S_S4096x16x1 : S_.BroadcastsInDim S4096x16x1 (![] : Fin 0 → Fin S4096x16x1.rank)
  bcast_S4096x16x1_S4096x16x512_0_1_2 : S4096x16x1.BroadcastsInDim S4096x16x512 (![0, 1, 2] : Fin 3 → Fin S4096x16x512.rank)
  shapeCasts_S4096x16x512_S4096x8192 : S4096x16x512.ShapeCasts S4096x8192
  bcast_S_S4096x8192 : S_.BroadcastsInDim S4096x8192 (![] : Fin 0 → Fin S4096x8192.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.CaseContents.lean ====
/-
  What one run of the kernel body leaves behind, as a value.

  The grid's last axis has two points. At the first (case A) the body clears the accumulator and adds the product of the
  first halves of the two operands' rows; at the second (case B) it adds the product of the second halves to what the
  first point left, and writes the output block: the activation of the normalised accumulator plus bias. So

    case A leaves in the accumulator   0 + (first half-product),
    case B leaves in the accumulator   (what it found) + (second half-product),
    case B leaves in the output block  the epilogue of that new accumulator.

  Each is read off the stores the run found: a store of the whole buffer decides its contents, and a load after a store
  of the whole buffer reads what was stored.
-/
import proofs.«139624_j19688130085476_1_alg».proof.Proof.Gen.KernelIdeal.Frame
import Idealize.ShloMosaic.Lib.Pipeline.Value
import Idealize.ShloMosaic.Lib.Tactic

set_option maxRecDepth 16384

noncomputable section

namespace Cert.KernelIdeal.CaseContents

open Cert.KernelIdeal Cert.KernelIdeal.Gen
open Idealize.ShloMosaic Idealize.ShloMosaic.TcCoe Idealize.ShloMosaic.Tactic Idealize.SL.Sem

variable {F : FTy → Type} [FloatOps F]

theorem zero_offsets : (![0, 0] : Fin 2 → Nat) = fun _ => 0 := funext fun a => by fin_cases a <;> rfl
theorem zero_offset : (![0] : Fin 1 → Nat) = fun _ => 0 := funext fun a => by fin_cases a; rfl

/-- Case A: the accumulator ends at the zero block plus the first half-product. -/
theorem accumulator_A (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S512x1024 .f32) (harg9 : arg9.IsWhole) (arg10 : Memref sig .tc .vmem S512x1024 .f32) (harg10 : arg10.IsWhole) (hc0 : cond0_0 i) (hc1 : ¬cond0_1 i)
    (x0 : Vec F S512x1024 .f32) (x1 : Vec F S1024x1024 .f32) (x2 : Vec F S1024 .f32) (x3 : Vec F S1024 .f32) (x4 : Vec F S1024 .f32) (x5 : Vec F S1024 .f32) :
    sout0_A_0 c i arg3 harg3 arg4 harg4 arg5 harg5 arg6 harg6 arg7 harg7 arg8 harg8 arg9 harg9 arg10 harg10 hc0 hc1 x0 x1 x2 x3 x4 x5 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x1024) zero_offsets, View.readCov_unit_zero (S := S512x1024) _ zero_offsets]
  simp only [View.readAt_eq_ld, harg3.read_unread, harg4.read_unread, View.ld_unit_zero (S := S512x1024) zero_offsets,
    View.ld_unit_zero (S := S1024x1024) zero_offsets]

/-- Case B: the accumulator ends at what it held plus the second half-product. -/
theorem accumulator_B (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i)
    (x0 : Vec F S512x1024 .f32) (x1 : Vec F S1024x1024 .f32) (x2 : Vec F S1024 .f32) (x3 : Vec F S1024 .f32) (x4 : Vec F S1024 .f32) (x5 : Vec F S1024 .f32) (xs0 : Vec F S512x1024 .f32) :
    sout0_B_0 c i arg3 harg3 arg4 harg4 arg5 harg5 arg6 harg6 arg7 harg7 arg8 harg8 arg9 harg9 arg10 harg10 hc0 hc1 x0 x1 x2 x3 x4 x5 xs0 = k0_pay2 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero zero_offsets]
  simp only [View.readAt_eq_ld, harg3.read_unread, harg4.read_unread, harg10.read_unread,
    View.ld_unit_zero (S := S512x1024) zero_offsets, View.ld_unit_zero (S := S1024x1024) zero_offsets]

/-- Case B: the output block ends at the epilogue of the new accumulator. -/
theorem output_B (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i)
    (x0 : Vec F S512x1024 .f32) (x1 : Vec F S1024x1024 .f32) (x2 : Vec F S1024 .f32) (x3 : Vec F S1024 .f32) (x4 : Vec F S1024 .f32) (x5 : Vec F S1024 .f32) (xs0 : Vec F S512x1024 .f32) :
    out0_B_6 c i arg3 harg3 arg4 harg4 arg5 harg5 arg6 harg6 arg7 harg7 arg8 harg8 arg9 harg9 arg10 harg10 hc0 hc1 x0 x1 x2 x3 x4 x5 xs0 = k0_pay3 (k0_pay2 x0 x1 xs0) x2 x3 x4 x5 := by
  unfold out0_B_6
  rw [View.read_writes_eq_canon _ _ _ (cover0_B_6 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero zero_offsets]
  simp only [View.readCov_unit_zero (S := S512x1024) _ zero_offsets, View.readAt_eq_ld, harg3.read_unread,
    harg4.read_unread, harg5.read_unread, harg6.read_unread, harg7.read_unread, harg8.read_unread, harg10.read_unread,
    View.ld_unit_zero (S := S512x1024) zero_offsets, View.ld_unit_zero (S := S1024x1024) zero_offsets,
    View.ld_unit_zero (S := S1024) zero_offset]

end Cert.KernelIdeal.CaseContents

end
-- ==== Proof.GroupNormSpec.lean ====
/-
  The function both programs compute, stated once over plain coordinates, with no program in sight.

  A row of the linear layer's output, y(r, c) = (sum over k of x(r, k) * w(c, k)) + b(c), is cut into sixteen groups of
  512 consecutive columns. Each group is normalised by its own mean and variance (both a sum over the group's 512
  entries divided by 512, the variance taken about the mean), scaled by the reciprocal square root of the variance plus a
  small constant; then every entry goes through an affine map with per-column weight and bias, a swish
  a * logistic(a), a per-column multiplier, and a second swish.

  The two float literals (512 and the small constant) are kept as the words the programs print: the same word on both
  sides is never evaluated.

  Also here: a sum over 2048 indices is the sum over the first 1024 plus the sum over the last 1024. That is the only
  rearrangement between the two programs (one accumulates the product in two halves), and it holds on the extended
  reals because addition there is commutative and associative.
-/
import Idealize.ShloMosaic.PureOps.Ideal.Laws
import Idealize.ShloMosaic.Lib.ValueIdx
import Idealize.ShloMosaic.Lib.IdealHost

noncomputable section

namespace Cert.GroupNorm

open Idealize.ShloMosaic Idealize.ShloMosaic.ValueIdx
open scoped BigOperators

/-! ## One group of 512 entries -/

/-- The divisor of both averages: the word of 512.0. -/
def n512 : EReal := Ideal.ofBits .f32 0x44000000#32

/-- The small constant added to the variance: the word both programs print for it. -/
def eps : EReal := Ideal.ofBits .f32 0x3727C5AC#32

/-- The mean of a group: its sum divided by 512. -/
def gmean (u : Fin 512 → EReal) : EReal := Ideal.div (∑ l : Fin 512, u l) n512

/-- The variance of a group about its mean. -/
def gvar (u : Fin 512 → EReal) : EReal :=
  Ideal.div (∑ l : Fin 512, (u l - gmean u) * (u l - gmean u)) n512

/-- Entry `l` of the normalised group. -/
def gnorm (u : Fin 512 → EReal) (l : Fin 512) : EReal :=
  (u l - gmean u) * Ideal.rsqrt (gvar u + eps)

/-! ## What follows the normalisation, entry by entry -/

/-- a * logistic(a). -/
def swish (a : EReal) : EReal := a * Ideal.logistic a

/-- Affine map, swish, multiplier, swish. -/
def act (n gw gb mw : EReal) : EReal := swish (swish (n * gw + gb) * mw)

/-! ## The whole function -/

abbrev SX : Shape := ⟨2, ![4096, 2048]⟩
abbrev SW : Shape := ⟨2, ![8192, 2048]⟩
abbrev SV : Shape := ⟨1, ![8192]⟩
abbrev SO : Shape := ⟨2, ![4096, 8192]⟩

/-- The linear layer at row `r`, column `c`. -/
def lin (x : SX.Idx → EReal) (w : SW.Idx → EReal) (b : SV.Idx → EReal) (r : Fin 4096) (c : Fin 8192) : EReal :=
  (∑ k : Fin 2048, x (ix2 r k) * w (ix2 c k)) + b (ix1 c)

/-- Column `l` of group `g`. -/
def gcol (g : Fin 16) (l : Fin 512) : Fin 8192 :=
  ⟨g.val * 512 + l.val, by have := g.isLt; have := l.isLt; omega⟩

/-- The group a column lies in, and its place there. -/
def grp (c : Fin 8192) : Fin 16 := ⟨c.val / 512, by have := c.isLt; omega⟩
def lane (c : Fin 8192) : Fin 512 := ⟨c.val % 512, by omega⟩

theorem gcol_grp_lane (c : Fin 8192) : gcol (grp c) (lane c) = c :=
  Fin.ext (by show c.val / 512 * 512 + c.val % 512 = c.val; omega)

theorem grp_gcol (g : Fin 16) (l : Fin 512) : grp (gcol g l) = g :=
  Fin.ext (by have := g.isLt; have := l.isLt; show (g.val * 512 + l.val) / 512 = g.val; omega)

theorem lane_gcol (g : Fin 16) (l : Fin 512) : lane (gcol g l) = l :=
  Fin.ext (by have := g.isLt; have := l.isLt; show (g.val * 512 + l.val) % 512 = l.val; omega)

/-- The result at (r, c): the activation of the normalised entry of `c`'s group in row `r`. -/
def result (x : SX.Idx → EReal) (w : SW.Idx → EReal) (b gw gb mw : SV.Idx → EReal) : SO.Idx → EReal := fun i =>
  act (gnorm (fun l => lin x w b (i 0) (gcol (grp (i 1)) l)) (lane (i 1)))
    (gw (ix1 (i 1))) (gb (ix1 (i 1))) (mw (ix1 (i 1)))

/-- The same at a column given by its group and place. -/
theorem result_gcol (x : SX.Idx → EReal) (w : SW.Idx → EReal) (b gw gb mw : SV.Idx → EReal)
    (r : Fin 4096) (g : Fin 16) (l : Fin 512) :
    result x w b gw gb mw (ix2 r (gcol g l))
      = act (gnorm (fun l' => lin x w b r (gcol g l')) l)
          (gw (ix1 (gcol g l))) (gb (ix1 (gcol g l))) (mw (ix1 (gcol g l))) := by
  show act (gnorm (fun l' => lin x w b r (gcol (grp (gcol g l)) l')) (lane (gcol g l))) _ _ _ = _
  rw [grp_gcol, lane_gcol]

/-! ## A sum over 2048 in two halves -/

theorem sum_two_halves (f : Fin 2048 → EReal) :
    ∑ k : Fin 2048, f k
      = (∑ k : Fin 1024, f ⟨k.val, by have := k.isLt; omega⟩)
        + ∑ k : Fin 1024, f ⟨1024 + k.val, by have := k.isLt; omega⟩ :=
  Fin.sum_univ_add (a := 1024) (b := 1024) f

end Cert.GroupNorm

end
-- ==== Proof.PayloadAtIndex.lean ====
/-
  The three values the kernel body stores, read at one index, over the extended reals.

  * the cleared accumulator is zero everywhere;
  * the accumulate step at (p, q) is what the accumulator held there plus the sum over k of x(p, k) * w(q, k): the
    matrix product contracts the second axis of both operands, and narrowing to a shorter float format is the identity
    on the extended reals;
  * the epilogue at (p, column l of group g of the block) is the activation of entry l of the normalised group whose
    entries are accumulator plus bias along that group's 512 columns. The block is 1024 columns wide, two groups; the
    reshape to (512, 2, 512) and back keeps the row-major position, so (p, g, l) and (p, g * 512 + l) name one entry.

  How it is cut. The product needs where each operand is read at an output index and a contraction position: four
  small facts, one per operand axis. The epilogue is cut into named values (accumulator plus bias regrouped; the average
  over a group; the group centred on its mean; the normalised group; the affine map and the two swishes), each read at
  an index by its own lemma; layout steps and the lane sum are read at indices built from coordinates first.
-/
import proofs.«139624_j19688130085476_1_alg».proof.Proof.Gen.KernelIdeal.Skeleton
import proofs.«139624_j19688130085476_1_alg».proof.Proof.GroupNormSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayloadAtIndex

open Cert.KernelIdeal Cert.KernelIdeal.Gen Cert.GroupNorm
open Idealize.ShloMosaic Idealize.ShloMosaic.ValueIdx
open scoped BigOperators

/-- Column `l` of group `g` inside a block of 1024 columns. -/
def bcol (g : Fin 2) (l : Fin 512) : Fin 1024 :=
  ⟨g.val * 512 + l.val, by have := g.isLt; have := l.isLt; omega⟩

/-- The cleared accumulator. -/
theorem cleared_apply (j : S512x1024.Idx) : (k0_pay1 (F := Ideal)) j = 0 := by
  unfold k0_pay1
  -- a reshape to the same shape changes nothing; every entry is the zero word, which reads 0
  rw [shapeCast_self]
  exact Ideal.ofBits_zero_f32

/-! ## The matrix product's operand indices

The product contracts axis 1 of both operands. At output index `i` and contraction position `q` the left operand
is read at (row of `i`, `q`) and the right operand at (column of `i`, `q`): each operand's axis 0 is its free axis
and follows the output, its axis 1 is the contracted one and follows `q`. -/

/-- The left operand's row is the output's row. -/
theorem left_free_axis (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl

/-- The left operand's column is the contraction position. -/
theorem left_contracted_axis (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q

/-- The right operand's row is the output's column. -/
theorem right_free_axis (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

/-- The right operand's column is the contraction position. -/
theorem right_contracted_axis (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product into a zero accumulator at (p, q): the sum over k of left(p, k) * right(q, k). The contraction index
has one axis of extent 1024, so the sum over it is the sum over `Fin 1024`. -/
theorem product_apply (x : FVec Ideal S512x1024 .bf16) (w : FVec Ideal S1024x1024 .bf16) (p : Fin 512) (q : Fin 1024) :
    matmul dot_S512x1024_S1024x1024_S512x1024_1_1_0_0_n_n none x w (constant (F := Ideal) S512x1024 .f32 0x00000000#32) (ix2 p q)
      = ∑ k : Fin 1024, x (ix2 p k) * w (ix2 q k) := by
  simp only [matmul]
  rw [Ideal.matmul_constant_zero_apply,
    ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q)
      ((contrEquiv1 dot_S512x1024_S1024x1024_S512x1024_1_1_0_0_n_n 1024 rfl rfl).symm k) = ix2 p k :=
    funext fun ax => Fin.ext (by
      match ax with
      | ⟨0, _⟩ => exact left_free_axis _ _
      | ⟨1, _⟩ => exact (left_contracted_axis _ _).trans hk)
  have er : dot_S512x1024_S1024x1024_S512x1024_1_1_0_0_n_n.rhsIdx (ix2 p q)
      ((contrEquiv1 dot_S512x1024_S1024x1024_S512x1024_1_1_0_0_n_n 1024 rfl rfl).symm k) = ix2 q k :=
    funext fun ax => Fin.ext (by
      match ax with
      | ⟨0, _⟩ => exact right_free_axis _ _
      | ⟨1, _⟩ => exact (right_contracted_axis _ _).trans hk)
  rw [el, er]

/-- One accumulate step. -/
theorem accumulate_apply (xb : FVec Ideal S512x1024 .f32) (wb : FVec Ideal S1024x1024 .f32) (a : FVec Ideal S512x1024 .f32)
    (p : Fin 512) (q : Fin 1024) :
    k0_pay2 (F := Ideal) xb wb a (ix2 p q) = a (ix2 p q) + ∑ k : Fin 1024, xb (ix2 p k) * wb (ix2 q k) := by
  unfold k0_pay2
  -- same-shape reshape: nothing; a sum read at an index: the sum of the entries; the product: the lemma above.
  -- What is left differs only by the narrowing of both operands, which leaves every entry as it is.
  rw [shapeCast_self, addf_apply, product_apply]
  rfl

/-! ## Layout steps and the lane sum, each read at an index given by coordinates -/

/-- A vector of 1024 entries viewed as one row and repeated down 512 rows reads, at (p, c), its entry c. -/
theorem row_apply (v : FVec Ideal S1024 .f32) (p : Fin 512) (c : Fin 1024) :
    broadcastTo S512x1024 (shapeCast S1x1024 v shapeCasts_S1024_S1x1024) broadcasts_S1x1024_S512x1024 (ix2 p c)
      = v (ix1 c) :=
  (broadcastTo_1b_ab_apply _ broadcasts_S1x1024_S512x1024 p c).trans
    (shapeCast_a_1a_apply v shapeCasts_S1024_S1x1024 0 c)

/-- Cutting each row of 1024 into two groups of 512 keeps the row-major position:
(p * 2 + g) * 512 + l = p * 1024 + (g * 512 + l). -/
theorem split_apply (y : FVec Ideal S512x1024 .f32) (p : Fin 512) (g : Fin 2) (l : Fin 512) :
    shapeCast S512x2x512 y shapeCasts_S512x1024_S512x2x512 (ix3 p g l) = y (ix2 p (bcol g l)) :=
  shapeCast_apply y shapeCasts_S512x1024_S512x2x512 (ix3 p g l) (ix2 p (bcol g l)) (by
    rw [Shape.rowMajor_val_two, Shape.rowMajor_val_three]
    show p.val * 1024 + (g.val * 512 + l.val) = (p.val * 2 + g.val) * 512 + l.val
    omega)

/-- Joining the two groups back into a row of 1024: the same equation read the other way. -/
theorem merge_apply (z : FVec Ideal S512x2x512 .f32) (p : Fin 512) (g : Fin 2) (l : Fin 512) :
    shapeCast S512x1024 z shapeCasts_S512x2x512_S512x1024 (ix2 p (bcol g l)) = z (ix3 p g l) :=
  shapeCast_apply z shapeCasts_S512x2x512_S512x1024 (ix2 p (bcol g l)) (ix3 p g l) (by
    rw [Shape.rowMajor_val_two, Shape.rowMajor_val_three]
    show (p.val * 2 + g.val) * 512 + l.val = p.val * 1024 + (g.val * 512 + l.val)
    omega)

/-- The sum along the last axis at (p, g) is the sum over the group's 512 entries. -/
theorem groupSum_apply (z : FVec Ideal S512x2x512 .f32) (p : Fin 512) (g : Fin 2) :
    multiReduction .add [2] S512x2 z 0x00000000#32 reduces_S512x2x512_S512x2 (.inl rfl) rfl (ix2 p g)
      = ∑ l : Fin 512, z (ix3 p g l) := by
  refine (Ideal.multiReduction_add_single z _ reduces_S512x2x512_S512x2 _ _ (ix2 p g)).trans ?_
  refine Finset.sum_congr rfl fun l _ => ?_
  exact congrArg z (funext fun ax => Fin.ext (by
    match ax with
    | ⟨0, _⟩ => rfl
    | ⟨1, _⟩ => rfl
    | ⟨2, _⟩ => rfl))

/-- A (512, 2) array given a trailing axis of extent one reads, at (p, g, u), its entry (p, g):
(p * 2 + g) * 1 + u with u = 0. -/
theorem keep_apply (s : FVec Ideal S512x2 .f32) (p : Fin 512) (g : Fin 2) (u : Fin 1) :
    shapeCast S512x2x1 s shapeCasts_S512x2_S512x2x1 (ix3 p g u) = s (ix2 p g) :=
  shapeCast_apply s shapeCasts_S512x2_S512x2x1 (ix3 p g u) (ix2 p g) (by
    rw [Shape.rowMajor_val_two, Shape.rowMajor_val_three]
    show p.val * 2 + g.val = (p.val * 2 + g.val) * 1 + u.val
    omega)

/-- A (512, 2, 1) array repeated along its last axis reads, at (p, g, l), its entry (p, g, 0). -/
theorem spread_apply (c : FVec Ideal S512x2x1 .f32) (p : Fin 512) (g : Fin 2) (l : Fin 512) :
    broadcastTo S512x2x512 c broadcasts_S512x2x1_S512x2x512 (ix3 p g l) = c (ix3 p g (0 : Fin 1)) :=
  broadcastTo_apply c broadcasts_S512x2x1_S512x2x512 (ix3 p g l) (ix3 p g (0 : Fin 1)) (fun ax => by
    match ax with
    | ⟨0, _⟩ => rfl
    | ⟨1, _⟩ => rfl
    | ⟨2, _⟩ => rfl)

/-! ## The epilogue's named values

The epilogue is read in five stages: accumulator plus bias regrouped as (512, 2, 512); the average over a group kept
as a column (used twice, for the mean and for the variance); the group centred on its mean; the centred group scaled
by the reciprocal square root of variance plus the small constant; and, back in (512, 1024), the affine map and the
two swishes. -/

/-- Accumulator plus bias, each row of 1024 cut into two groups of 512. -/
def grouped (a : FVec Ideal S512x1024 .f32) (vb : FVec Ideal S1024 .f32) : FVec Ideal S512x2x512 .f32 :=
  shapeCast S512x2x512
    (addf a (broadcastTo S512x1024 (shapeCast S1x1024 vb shapeCasts_S1024_S1x1024) broadcasts_S1x1024_S512x1024))
    shapeCasts_S512x1024_S512x2x512

/-- Entry l of group g of row p is the accumulator plus the bias at column g * 512 + l. -/
theorem grouped_apply (a : FVec Ideal S512x1024 .f32) (vb : FVec Ideal S1024 .f32) (p : Fin 512) (g : Fin 2) (l : Fin 512) :
    grouped a vb (ix3 p g l) = a (ix2 p (bcol g l)) + vb (ix1 (bcol g l)) := by
  unfold grouped
  rw [split_apply, addf_apply, row_apply]

/-- The sum along the last axis divided by the word of 512.0, kept with a trailing axis of extent one. -/
def averaged (z : FVec Ideal S512x2x512 .f32) : FVec Ideal S512x2x1 .f32 :=
  divf
    (shapeCast S512x2x1
      (multiReduction .add [2] S512x2 z 0x00000000#32 reduces_S512x2x512_S512x2 (.inl rfl) rfl)
      shapeCasts_S512x2_S512x2x1)
    (broadcast S512x2x1 (Scalar.ofBits (F := Ideal) .f32 0x44000000#32))

/-- At (p, g, ·) it is the group's sum divided by 512. -/
theorem averaged_apply (z : FVec Ideal S512x2x512 .f32) (p : Fin 512) (g : Fin 2) (u : Fin 1) :
    averaged z (ix3 p g u) = Ideal.div (∑ l : Fin 512, z (ix3 p g l)) n512 := by
  unfold averaged
  rw [divf_apply, keep_apply, groupSum_apply]
  rfl

/-- The mean of the group (p, g) is the specification's mean of that group's entries. -/
theorem averaged_eq_gmean (z : FVec Ideal S512x2x512 .f32) (p : Fin 512) (g : Fin 2) (u : Fin 1) :
    averaged z (ix3 p g u) = gmean (fun l => z (ix3 p g l)) :=
  averaged_apply z p g u

/-- Every entry minus its group's mean. -/
def centred (z : FVec Ideal S512x2x512 .f32) : FVec Ideal S512x2x512 .f32 :=
  subf z (broadcastTo S512x2x512 (averaged z) broadcasts_S512x2x1_S512x2x512)

/-- At (p, g, l): the entry minus the mean of group (p, g), the mean being the same for every l. -/
theorem centred_apply (z : FVec Ideal S512x2x512 .f32) (p : Fin 512) (g : Fin 2) (l : Fin 512) :
    centred z (ix3 p g l) = z (ix3 p g l) - gmean (fun l' => z (ix3 p g l')) := by
  unfold centred
  rw [subf_apply, spread_apply, averaged_eq_gmean]

/-- The average of the squared centred entries is the specification's variance. -/
theorem averaged_sq_centred (z : FVec Ideal S512x2x512 .f32) (p : Fin 512) (g : Fin 2) (u : Fin 1) :
    averaged (mulf (centred z) (centred z)) (ix3 p g u) = gvar (fun l => z (ix3 p g l)) := by
  rw [averaged_apply]
  unfold gvar
  refine congrArg (Ideal.div · n512) (Finset.sum_congr rfl fun l _ => ?_)
  rw [mulf_apply, centred_apply]

/-- The centred group times the reciprocal square root of variance plus the small constant. -/
def normalised (z : FVec Ideal S512x2x512 .f32) : FVec Ideal S512x2x512 .f32 :=
  mulf (centred z)
    (broadcastTo S512x2x512
      (rsqrt (addf (averaged (mulf (centred z) (centred z)))
        (broadcast S512x2x1 (Scalar.ofBits (F := Ideal) .f32 0x3727C5AC#32))))
      broadcasts_S512x2x1_S512x2x512)

/-- It is the specification's normalised entry of the group. -/
theorem normalised_apply (z : FVec Ideal S512x2x512 .f32) (p : Fin 512) (g : Fin 2) (l : Fin 512) :
    normalised z (ix3 p g l) = gnorm (fun l' => z (ix3 p g l')) l := by
  unfold normalised
  rw [mulf_apply, centred_apply, spread_apply]
  show _ * Ideal.rsqrt (averaged (mulf (centred z) (centred z)) (ix3 p g (0 : Fin 1)) + eps) = _
  rw [averaged_sq_centred]
  rfl

/-- a * logistic(a), entry by entry. -/
def swishEach (t : FVec Ideal S512x1024 .f32) : FVec Ideal S512x1024 .f32 := mulf t (logistic t)

/-- At an index it is the specification's swish of the entry: the kernel's logistic is 1 / (1 + exp(-a)) there. -/
theorem swishEach_apply (t : FVec Ideal S512x1024 .f32) (i : S512x1024.Idx) : swishEach t i = swish (t i) := rfl

/-- Per-column weight and bias, swish, per-column multiplier, swish. -/
def finished (n : FVec Ideal S512x1024 .f32) (vgw vgb vmw : FVec Ideal S1024 .f32) : FVec Ideal S512x1024 .f32 :=
  swishEach
    (mulf
      (swishEach
        (addf
          (mulf n (broadcastTo S512x1024 (shapeCast S1x1024 vgw shapeCasts_S1024_S1x1024) broadcasts_S1x1024_S512x1024))
          (broadcastTo S512x1024 (shapeCast S1x1024 vgb shapeCasts_S1024_S1x1024) broadcasts_S1x1024_S512x1024)))
      (broadcastTo S512x1024 (shapeCast S1x1024 vmw shapeCasts_S1024_S1x1024) broadcasts_S1x1024_S512x1024))

/-- At (p, c): the specification's activation of the entry with column c's weight, bias and multiplier; each of the
three vectors is repeated down the rows, so only its entry c is read. -/
theorem finished_apply (n : FVec Ideal S512x1024 .f32) (vgw vgb vmw : FVec Ideal S1024 .f32) (p : Fin 512) (c : Fin 1024) :
    finished n vgw vgb vmw (ix2 p c) = act (n (ix2 p c)) (vgw (ix1 c)) (vgb (ix1 c)) (vmw (ix1 c)) := by
  unfold finished
  rw [swishEach_apply, mulf_apply, swishEach_apply, addf_apply, mulf_apply, row_apply, row_apply, row_apply]
  rfl

/-- The stored value is these stages composed: the operations are the same, in the same order. -/
theorem k0_pay3_eq_stages (a : FVec Ideal S512x1024 .f32) (vb vgw vgb vmw : FVec Ideal S1024 .f32) :
    k0_pay3 (F := Ideal) a vb vgw vgb vmw
      = finished (shapeCast S512x1024 (normalised (grouped a vb)) shapeCasts_S512x2x512_S512x1024) vgw vgb vmw := rfl

/-- The epilogue. -/
theorem epilogue_apply (a : FVec Ideal S512x1024 .f32) (vb vgw vgb vmw : FVec Ideal S1024 .f32)
    (p : Fin 512) (g : Fin 2) (l : Fin 512) :
    k0_pay3 (F := Ideal) a vb vgw vgb vmw (ix2 p (bcol g l))
      = act (gnorm (fun l' => a (ix2 p (bcol g l')) + vb (ix1 (bcol g l'))) l)
          (vgw (ix1 (bcol g l))) (vgb (ix1 (bcol g l))) (vmw (ix1 (bcol g l))) := by
  -- stage by stage from the outside in: the activation at column g * 512 + l, the join of the two groups read at
  -- (p, g, l), the normalised entry of the group; then the group's entries are accumulator plus bias.
  rw [k0_pay3_eq_stages, finished_apply, merge_apply, normalised_apply]
  have hu : (fun l' => grouped a vb (ix3 p g l')) = fun l' => a (ix2 p (bcol g l')) + vb (ix1 (bcol g l')) :=
    funext fun l' => grouped_apply a vb p g l'
  rw [hu]

end Cert.KernelIdeal.PayloadAtIndex

end
-- ==== Proof.KernelValue.lean ====
/-
  What the kernel's result array holds after the run: the specified function of the six argument arrays.

  The grid is 8 x 8 x 2, flattened row-major: point t has row block t / 16, column block (t / 2) % 8 and half t % 2.
  The output block (512 rows, 1024 columns) of a (row block, column block) pair is written back at the pair's second
  point only, an odd t. There the accumulator holds the zero block plus the product of the first halves (left by the
  even point before) plus the product of the second halves, and a sum over 2048 is the sum of its two halves, so the
  accumulator plus bias is the linear layer at the block's rows and columns. A block of 1024 columns starts at a
  multiple of 1024, hence holds two whole groups of 512: group g of the block is group 2 * (column block) + g of the
  row, and its 512 entries are exactly that group's. So every written-back entry is the specified result at its place
  in the whole array, the odd points' blocks tile the array, and the array ends at the specified function.
-/
import proofs.«139624_j19688130085476_1_alg».proof.Proof.Gen.KernelIdeal.Value
import proofs.«139624_j19688130085476_1_alg».proof.Proof.CaseContents
import proofs.«139624_j19688130085476_1_alg».proof.Proof.PayloadAtIndex
import proofs.«139624_j19688130085476_1_alg».proof.Proof.GroupNormSpec
import Idealize.ShloMosaic.Lib.Pipeline.Value
import Idealize.ShloMosaic.Lib.ValueIdx

set_option maxRecDepth 16384

noncomputable section

namespace Cert.KernelIdeal.KernelValue

open Cert.KernelIdeal Cert.KernelIdeal.Gen Cert.GroupNorm Cert.KernelIdeal.PayloadAtIndex
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-! ## The grid: which blocks a point reads and writes -/

/-- The printed index maps in closed form, decided over the 128 points: the first operand's block is
    (row block, half), the second's (column block, half), the four vectors' and the output's follow the column block,
    the output's row follows the row block. -/
theorem index_maps : ∀ t : Fin cfg0.N,
    win0_0.index t (0 : Fin 2) = t.val / 16 ∧ win0_0.index t (1 : Fin 2) = t.val % 2
    ∧ win0_1.index t (0 : Fin 2) = t.val / 2 % 8 ∧ win0_1.index t (1 : Fin 2) = t.val % 2
    ∧ win0_2.index t (0 : Fin 1) = t.val / 2 % 8
    ∧ win0_3.index t (0 : Fin 1) = t.val / 2 % 8
    ∧ win0_4.index t (0 : Fin 1) = t.val / 2 % 8
    ∧ win0_5.index t (0 : Fin 1) = t.val / 2 % 8
    ∧ win0_6.index t (0 : Fin 2) = t.val / 16 ∧ win0_6.index t (1 : Fin 2) = t.val / 2 % 8 :=
  (by decide +kernel : ∀ t : Fin grid0.N, _)

theorem points : cfg0.N = 128 := N_0

/-- Row `p` of point `t`'s row block, in the whole array. -/
def rowOf (t : Fin cfg0.N) (p : Fin 512) : Fin 4096 :=
  ⟨512 * (t.val / 16) + p.val, by have := t.isLt; have := points; have := p.isLt; omega⟩

/-- Column `q` of point `t`'s column block, in the whole array. -/
def colOf (t : Fin cfg0.N) (q : Fin 1024) : Fin 8192 :=
  ⟨1024 * (t.val / 2 % 8) + q.val, by have := q.isLt; omega⟩

/-- Contraction index `k` of point `t`'s half, in the whole array. -/
def depthOf (t : Fin cfg0.N) (k : Fin 1024) : Fin 2048 :=
  ⟨1024 * (t.val % 2) + k.val, by have := k.isLt; omega⟩

/-! ## The six input blocks at a point, by name and at an index -/

abbrev xblk (c : Dev nD) (t : Fin cfg0.N) : FVec Ideal S512x1024 .f32 := iblk m c 0 t
abbrev wblk (c : Dev nD) (t : Fin cfg0.N) : FVec Ideal S1024x1024 .f32 := iblk m c 1 t
abbrev bblk (c : Dev nD) (t : Fin cfg0.N) : FVec Ideal S1024 .f32 := iblk m c 2 t
abbrev gwblk (c : Dev nD) (t : Fin cfg0.N) : FVec Ideal S1024 .f32 := iblk m c 3 t
abbrev gbblk (c : Dev nD) (t : Fin cfg0.N) : FVec Ideal S1024 .f32 := iblk m c 4 t
abbrev mwblk (c : Dev nD) (t : Fin cfg0.N) : FVec Ideal S1024 .f32 := iblk m c 5 t

/-- A block's entry sits at block index times block size plus its place in the block, on every axis. -/
theorem xblk_apply (c : Dev nD) (t : Fin cfg0.N) (p : Fin 512) (k : Fin 1024) :
    xblk m c t (ix2 p k) = m ((c : Thread nD τ).loc main_arg0) (ix2 (rowOf t p) (depthOf t k)) := by
  obtain ⟨e00, e01, -⟩ := index_maps t
  show V m c main_arg0 (((cfg0.win 0).blk t).view.emb (ix2 p k)) = _
  refine congrArg (m ((c : Thread nD τ).loc main_arg0)) (funext fun a => Fin.ext ?_)
  match a with
  | ⟨0, _⟩ => show win0_0.index t (0 : Fin 2) * 512 + 1 * p.val = 512 * (t.val / 16) + p.val; omega
  | ⟨1, _⟩ => show win0_0.index t (1 : Fin 2) * 1024 + 1 * k.val = 1024 * (t.val % 2) + k.val; omega

theorem wblk_apply (c : Dev nD) (t : Fin cfg0.N) (q : Fin 1024) (k : Fin 1024) :
    wblk m c t (ix2 q k) = m ((c : Thread nD τ).loc main_arg1) (ix2 (colOf t q) (depthOf t k)) := by
  obtain ⟨-, -, e10, e11, -⟩ := index_maps t
  show V m c main_arg1 (((cfg0.win 1).blk t).view.emb (ix2 q k)) = _
  refine congrArg (m ((c : Thread nD τ).loc main_arg1)) (funext fun a => Fin.ext ?_)
  match a with
  | ⟨0, _⟩ => show win0_1.index t (0 : Fin 2) * 1024 + 1 * q.val = 1024 * (t.val / 2 % 8) + q.val; omega
  | ⟨1, _⟩ => show win0_1.index t (1 : Fin 2) * 1024 + 1 * k.val = 1024 * (t.val % 2) + k.val; omega

theorem bblk_apply (c : Dev nD) (t : Fin cfg0.N) (q : Fin 1024) :
    bblk m c t (ix1 q) = m ((c : Thread nD τ).loc main_arg2) (ix1 (colOf t q)) := by
  obtain ⟨-, -, -, -, e2, -⟩ := index_maps t
  show V m c main_arg2 (((cfg0.win 2).blk t).view.emb (ix1 q)) = _
  refine congrArg (m ((c : Thread nD τ).loc main_arg2)) (funext fun a => Fin.ext ?_)
  match a with
  | ⟨0, _⟩ => show win0_2.index t (0 : Fin 1) * 1024 + 1 * q.val = 1024 * (t.val / 2 % 8) + q.val; omega

theorem gwblk_apply (c : Dev nD) (t : Fin cfg0.N) (q : Fin 1024) :
    gwblk m c t (ix1 q) = m ((c : Thread nD τ).loc main_arg3) (ix1 (colOf t q)) := by
  obtain ⟨-, -, -, -, -, e3, -⟩ := index_maps t
  show V m c main_arg3 (((cfg0.win 3).blk t).view.emb (ix1 q)) = _
  refine congrArg (m ((c : Thread nD τ).loc main_arg3)) (funext fun a => Fin.ext ?_)
  match a with
  | ⟨0, _⟩ => show win0_3.index t (0 : Fin 1) * 1024 + 1 * q.val = 1024 * (t.val / 2 % 8) + q.val; omega

theorem gbblk_apply (c : Dev nD) (t : Fin cfg0.N) (q : Fin 1024) :
    gbblk m c t (ix1 q) = m ((c : Thread nD τ).loc main_arg4) (ix1 (colOf t q)) := by
  obtain ⟨-, -, -, -, -, -, e4, -⟩ := index_maps t
  show V m c main_arg4 (((cfg0.win 4).blk t).view.emb (ix1 q)) = _
  refine congrArg (m ((c : Thread nD τ).loc main_arg4)) (funext fun a => Fin.ext ?_)
  match a with
  | ⟨0, _⟩ => show win0_4.index t (0 : Fin 1) * 1024 + 1 * q.val = 1024 * (t.val / 2 % 8) + q.val; omega

theorem mwblk_apply (c : Dev nD) (t : Fin cfg0.N) (q : Fin 1024) :
    mwblk m c t (ix1 q) = m ((c : Thread nD τ).loc main_arg5) (ix1 (colOf t q)) := by
  obtain ⟨-, -, -, -, -, -, -, e5, -⟩ := index_maps t
  show V m c main_arg5 (((cfg0.win 5).blk t).view.emb (ix1 q)) = _
  refine congrArg (m ((c : Thread nD τ).loc main_arg5)) (funext fun a => Fin.ext ?_)
  match a with
  | ⟨0, _⟩ => show win0_5.index t (0 : Fin 1) * 1024 + 1 * q.val = 1024 * (t.val / 2 % 8) + q.val; omega

/-! ## The output block at a pair's second point -/

/-- The point before `t`. -/
def before (t : Fin cfg0.N) : Fin cfg0.N := ⟨t.val - 1, Nat.lt_of_le_of_lt (Nat.sub_le _ _) t.isLt⟩

/-- What the even point before an odd point leaves in the accumulator: the zero block plus the first half-product. -/
theorem accumulator_before (c : Dev nD) (t : Fin cfg0.N) (h1 : t.val % 2 = 1) :
    (outsAt0 m c (t.val - 1) (Nat.lt_of_le_of_lt (Nat.sub_le _ _) t.isLt)).2
      = k0_pay2 (F := Ideal) (xblk m c (before t)) (wblk m c (before t)) (k0_pay1 (F := Ideal)) := by
  have e0 : (before t).val % 2 = 0 := by show (t.val - 1) % 2 = 0; omega
  have e1 : ¬(before t).val % 2 = 1 := by show ¬(t.val - 1) % 2 = 1; omega
  show (outsAt0 m c (before t).val (before t).isLt).2 = _
  rw [outsAt0_A m c (before t) e0 e1]
  dsimp only
  exact CaseContents.accumulator_A (F := Ideal) c (grid0.coords (before t)) (ms0_0 (before t)) (hs0_0 (before t)) (ms0_1 (before t)) (hs0_1 (before t)) (ms0_2 (before t)) (hs0_2 (before t)) (ms0_3 (before t)) (hs0_3 (before t)) (ms0_4 (before t)) (hs0_4 (before t)) (ms0_5 (before t)) (hs0_5 (before t)) (ms0_6 (before t)) (hs0_6 (before t)) scM0_0 (Memref.isWhole_whole _) ((hcond0_0 (before t)).mpr e0)
    (fun h => e1 ((hcond0_1 (before t)).mp h)) (iblk m c 0 (before t)) (iblk m c 1 (before t)) (iblk m c 2 (before t)) (iblk m c 3 (before t)) (iblk m c 4 (before t)) (iblk m c 5 (before t))

/-- At an odd point the output block holds the epilogue of: zero, plus the first half-product, plus the second. -/
theorem output_at_odd (c : Dev nD) (t : Fin cfg0.N) (h1 : t.val % 2 = 1) :
    (outsAt0 m c t.val t.isLt).1
      = k0_pay3 (F := Ideal) (k0_pay2 (F := Ideal) (xblk m c t) (wblk m c t)
            (k0_pay2 (F := Ideal) (xblk m c (before t)) (wblk m c (before t)) (k0_pay1 (F := Ideal))))
          (bblk m c t) (gwblk m c t) (gbblk m c t) (mwblk m c t) := by
  have h0 : ¬t.val % 2 = 0 := by omega
  rw [outsAt0_B m c t h0 h1]
  dsimp only
  refine (CaseContents.output_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1)
    (iblk m c 0 t) (iblk m c 1 t) (iblk m c 2 t) (iblk m c 3 t) (iblk m c 4 t) (iblk m c 5 t) (outsAt0 m c (t.val - 1) (Nat.lt_of_le_of_lt (Nat.sub_le _ _) t.isLt)).2).trans ?_
  rw [accumulator_before m c t h1]

/-! ## An entry of the written-back block is the specified result at its place in the array -/

/-- Group `g` of point `t`'s column block, among the row's sixteen. -/
def grpOf (t : Fin cfg0.N) (g : Fin 2) : Fin 16 :=
  ⟨2 * (t.val / 2 % 8) + g.val, by have := g.isLt; omega⟩

/-- A block of 1024 columns holds two whole groups: column `l` of its group `g` is column `l` of the row's group. -/
theorem colOf_bcol (t : Fin cfg0.N) (g : Fin 2) (l : Fin 512) : colOf t (bcol g l) = gcol (grpOf t g) l :=
  Fin.ext (by
    show 1024 * (t.val / 2 % 8) + (g.val * 512 + l.val) = (2 * (t.val / 2 % 8) + g.val) * 512 + l.val
    omega)

/-- The six arguments as launched, by name. -/
abbrev argX (c : Dev nD) := m ((c : Thread nD τ).loc main_arg0)
abbrev argW (c : Dev nD) := m ((c : Thread nD τ).loc main_arg1)
abbrev argB (c : Dev nD) := m ((c : Thread nD τ).loc main_arg2)
abbrev argGw (c : Dev nD) := m ((c : Thread nD τ).loc main_arg3)
abbrev argGb (c : Dev nD) := m ((c : Thread nD τ).loc main_arg4)
abbrev argMw (c : Dev nD) := m ((c : Thread nD τ).loc main_arg5)

/-- The accumulator after both halves, plus the bias, is the linear layer at the block's row and column: the even
    point contributes the contraction indices below 1024, the odd point those from 1024 on, at the same row and column. -/
theorem linear_at (c : Dev nD) (t : Fin cfg0.N) (h1 : t.val % 2 = 1) (p : Fin 512) (q : Fin 1024) :
    k0_pay2 (F := Ideal) (xblk m c t) (wblk m c t)
        (k0_pay2 (F := Ideal) (xblk m c (before t)) (wblk m c (before t)) (k0_pay1 (F := Ideal))) (ix2 p q)
      + bblk m c t (ix1 q)
      = lin (argX m c) (argW m c) (argB m c) (rowOf t p) (colOf t q) := by
  rw [accumulate_apply, accumulate_apply, cleared_apply, zero_add, bblk_apply]
  unfold lin
  refine congrArg (· + argB m c (ix1 (colOf t q))) ?_
  rw [sum_two_halves]
  have hrow : rowOf (before t) p = rowOf t p := Fin.ext (by show 512 * ((t.val - 1) / 16) + p.val = 512 * (t.val / 16) + p.val; omega)
  have hcol : colOf (before t) q = colOf t q := Fin.ext (by show 1024 * ((t.val - 1) / 2 % 8) + q.val = 1024 * (t.val / 2 % 8) + q.val; omega)
  refine congrArg₂ (· + ·) (Finset.sum_congr rfl fun k _ => ?_) (Finset.sum_congr rfl fun k _ => ?_)
  · have hk : depthOf (before t) k = ⟨k.val, by have := k.isLt; omega⟩ :=
      Fin.ext (by show 1024 * ((t.val - 1) % 2) + k.val = k.val; omega)
    rw [xblk_apply, wblk_apply, hrow, hcol, hk]
  · have hk : depthOf t k = ⟨1024 + k.val, by have := k.isLt; omega⟩ :=
      Fin.ext (by show 1024 * (t.val % 2) + k.val = 1024 + k.val; omega)
    rw [xblk_apply, wblk_apply, hk]

/-- The specified function of the six arguments as they were launched. -/
abbrev specified (c : Dev nD) : Buf (Elt Ideal) ((c : Thread nD τ).loc main_v0) :=
  result (argX m c) (argW m c) (argB m c) (argGw m c) (argGb m c) (argMw m c)

/-- Entry (p, column l of group g) of the block an odd point writes back. -/
theorem block_value (c : Dev nD) (t : Fin cfg0.N) (h1 : t.val % 2 = 1) (p : Fin 512) (g : Fin 2) (l : Fin 512) :
    k0_pay3 (F := Ideal) (k0_pay2 (F := Ideal) (xblk m c t) (wblk m c t)
          (k0_pay2 (F := Ideal) (xblk m c (before t)) (wblk m c (before t)) (k0_pay1 (F := Ideal))))
        (bblk m c t) (gwblk m c t) (gbblk m c t) (mwblk m c t) (ix2 p (bcol g l))
      = specified m c (ix2 (rowOf t p) (gcol (grpOf t g) l)) := by
  rw [epilogue_apply]
  show _ = result (argX m c) (argW m c) (argB m c) (argGw m c) (argGb m c) (argMw m c) (ix2 (rowOf t p) (gcol (grpOf t g) l))
  rw [result_gcol]
  have hu : (fun l' : Fin 512 =>
        k0_pay2 (F := Ideal) (xblk m c t) (wblk m c t)
            (k0_pay2 (F := Ideal) (xblk m c (before t)) (wblk m c (before t)) (k0_pay1 (F := Ideal))) (ix2 p (bcol g l'))
          + bblk m c t (ix1 (bcol g l')))
      = fun l' : Fin 512 => lin (argX m c) (argW m c) (argB m c) (rowOf t p) (gcol (grpOf t g) l') :=
    funext fun l' => by rw [linear_at m c t h1, colOf_bcol]
  rw [hu, gwblk_apply, gbblk_apply, mwblk_apply, colOf_bcol]

/-! ## From blocks to the array -/

/-- Every index of a block is (row, column l of group g). -/
theorem exists_bcol (y : S512x1024.Idx) : ∃ (p : Fin 512) (g : Fin 2) (l : Fin 512), y = ix2 p (bcol g l) := by
  have hq : (y 1).val < 1024 := (y 1).isLt
  refine ⟨y 0, ⟨(y 1).val / 512, by omega⟩, ⟨(y 1).val % 512, by omega⟩, ?_⟩
  refine (eq_ix2 y).trans (congrArg (ix2 (y 0)) (Fin.ext ?_))
  show (y 1).val = (y 1).val / 512 * 512 + (y 1).val % 512
  omega

/-- What an odd point writes back is its block of the specified function. -/
theorem flushed_eq (c : Dev nD) (t : Fin cfg0.N) (hf : (cfg0.win 6).flush t = true) :
    (dats m 0 c).flushed 6 t = ((cfg0.win 6).blk t).view.read (Elt Ideal) (specified m c) := by
  have h1 : t.val % 2 = 1 := (flush0_6 t).mp hf
  obtain ⟨-, -, -, -, -, -, -, -, e60, e61⟩ := index_maps t
  rw [Cert.KernelIdeal.Value.flushed6, output_at_odd m c t h1]
  show (fun y : S512x1024.Idx => k0_pay3 (F := Ideal) (k0_pay2 (F := Ideal) (xblk m c t) (wblk m c t)
          (k0_pay2 (F := Ideal) (xblk m c (before t)) (wblk m c (before t)) (k0_pay1 (F := Ideal))))
        (bblk m c t) (gwblk m c t) (gbblk m c t) (mwblk m c t) y)
      = fun y : S512x1024.Idx => specified m c (((cfg0.win 6).blk t).view.emb y)
  funext y
  obtain ⟨p, g, l, rfl⟩ := exists_bcol y
  rw [block_value m c t h1]
  refine congrArg (specified m c) (funext fun a => Fin.ext ?_)
  match a with
  | ⟨0, _⟩ => show 512 * (t.val / 16) + p.val = win0_6.index t (0 : Fin 2) * 512 + 1 * p.val; omega
  | ⟨1, _⟩ =>
    show (2 * (t.val / 2 % 8) + g.val) * 512 + l.val = win0_6.index t (1 : Fin 2) * 1024 + 1 * (g.val * 512 + l.val)
    omega

/-- An index of the array is in point `t`'s block iff each coordinate is in the block's range. -/
theorem mem_block (t : Fin cfg0.N) (i : S4096x8192.Idx) :
    i ∈ ((cfg0.win 6).blk t).view.set
      ↔ ∀ a : Fin 2, win0_6.index t a * S512x1024.size a ≤ (i a).val
          ∧ (i a).val < win0_6.index t a * S512x1024.size a + S512x1024.size a := by
  show i ∈ ((View.whole main_v0).slice (win0_6.rect t)).set ↔ _
  rw [View.set_slice_whole, Rect.mem_set_unit]
  exact Iff.rfl

/-- The odd points' blocks tile the array: (r, c) lies in the block of the pair (r / 512, c / 1024). -/
theorem covered (i : S4096x8192.Idx) :
    ∃ t : Fin cfg0.N, (cfg0.win 6).flush t = true ∧ i ∈ ((cfg0.win 6).blk t).view.set := by
  have hr : (i 0).val < 4096 := (i 0).isLt
  have hc : (i 1).val < 8192 := (i 1).isLt
  let t : Fin cfg0.N := ⟨((i 0).val / 512 * 8 + (i 1).val / 1024) * 2 + 1, by rw [points]; omega⟩
  have ht : t.val = ((i 0).val / 512 * 8 + (i 1).val / 1024) * 2 + 1 := rfl
  obtain ⟨-, -, -, -, -, -, -, -, e60, e61⟩ := index_maps t
  refine ⟨t, (flush0_6 t).mpr (by omega), ?_⟩
  rw [mem_block]
  intro a
  match a with
  | ⟨0, _⟩ =>
    show win0_6.index t (0 : Fin 2) * 512 ≤ (i 0).val ∧ (i 0).val < win0_6.index t (0 : Fin 2) * 512 + 512
    omega
  | ⟨1, _⟩ =>
    show win0_6.index t (1 : Fin 2) * 1024 ≤ (i 1).val ∧ (i 1).val < win0_6.index t (1 : Fin 2) * 1024 + 1024
    omega

/-- So the result array ends at the specified function. -/
theorem final_array (c : Dev nD) : (dats m 0 c).arrAt 6 cfg0.N = specified m c :=
  (dats m 0 c).arrAt_eq_of_cover 6 (specified m c) (flushed_eq m c) covered

/-- The run, read: the result array at the specified function of the arguments, the arguments unchanged. -/
theorem run : θ_run defs (onTc (τ := τ) (main (F := Ideal))) ⟨m, fun _ => 0, ρ⟩ fun r => ∀ c : Dev nD,
      r.2.mem ((c : Thread nD τ).loc main_v0) = specified m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_array m c), (h c).2⟩)
    (Cert.KernelIdeal.Value.run_blocks m ρ)

end Cert.KernelIdeal.KernelValue

end
-- ==== Proof.ReferenceValue.lean ====
/-
  The reference program computes the specified function.

  Its last stage, read back one operation at a time, is at every index (r, c) the activation of the normalised entry of
  c's group in row r: the matrix product against the transposed weight is the sum over k of x(r, k) * w(c, k); the
  reshape to (4096, 16, 512) sends (r, g, l) to column g * 512 + l; both averages are the initial zero plus a sum over
  the group, divided by 512; and 1 / (1 + exp(-a)) is the logistic function on the extended reals by definition.
-/
import proofs.«139624_j19688130085476_1_alg».proof.Proof.Gen.ReferenceIdeal.Read
import proofs.«139624_j19688130085476_1_alg».proof.Proof.GroupNormSpec
import Idealize.ShloMosaic.Lib.IdealHost

noncomputable section

namespace Cert.ReferenceIdeal.RefValue

open Cert.ReferenceIdeal Cert.ReferenceIdeal.Read Cert.GroupNorm
open Idealize.ShloMosaic Idealize.ShloMosaic.ValueIdx
open scoped BigOperators

/-! ## Where each operation reads its operand, at explicit coordinates

Every index below is written by its coordinates: (r, c) for a row and a column of the 4096 x 8192 arrays, (r, g, l) for
a row, a group and a place in the group of the 4096 x 16 x 512 arrays, with c = g * 512 + l. Each statement says which
operand entry one result entry is read from. -/

/-- Entry (r, c) of the matrix product takes its k-th left factor from x at (r, k). -/
theorem product_left_index (r : Fin 4096) (c : Fin 8192) (k : Fin 2048) : lidx_main_v1 (ix2 r c) k = ix2 r k :=
  funext fun a => Fin.ext (by match a with | ⟨0, _⟩ => rfl | ⟨1, _⟩ => rfl)

/-- Its k-th right factor is entry (k, c) of the transposed weight, which is the weight at (c, k). -/
theorem product_right_index (r : Fin 4096) (c : Fin 8192) (k : Fin 2048) :
    idx_main_v0 (ridx_main_v1 (ix2 r c) k) = ix2 c k :=
  funext fun a => Fin.ext (by match a with | ⟨0, _⟩ => rfl | ⟨1, _⟩ => rfl)

/-- The linear layer's bias, spread first to one row and then to all rows, is read at column c. -/
theorem bias_index (r : Fin 4096) (c : Fin 8192) : idx_main_v2 (idx_main_v3 (ix2 r c)) = ix1 c :=
  funext fun a => Fin.ext (by match a with | ⟨0, _⟩ => rfl)

/-- So is the per-column weight of the affine map … -/
theorem affine_weight_index (r : Fin 4096) (c : Fin 8192) : idx_main_v25 (idx_main_v26 (ix2 r c)) = ix1 c :=
  funext fun a => Fin.ext (by match a with | ⟨0, _⟩ => rfl)

/-- … its per-column bias … -/
theorem affine_bias_index (r : Fin 4096) (c : Fin 8192) : idx_main_v28 (idx_main_v29 (ix2 r c)) = ix1 c :=
  funext fun a => Fin.ext (by match a with | ⟨0, _⟩ => rfl)

/-- … and the per-column multiplier. -/
theorem multiplier_index (r : Fin 4096) (c : Fin 8192) : idx_main_v38 (idx_main_v39 (ix2 r c)) = ix1 c :=
  funext fun a => Fin.ext (by match a with | ⟨0, _⟩ => rfl)

/-- Cutting a row into groups: entry (r, g, l) has flat position (r * 16 + g) * 512 + l, whose quotient by 8192 is r and
    whose remainder is the column g * 512 + l, because g * 512 + l stays below 8192. -/
theorem split_into_groups_index (r : Fin 4096) (g : Fin 16) (l : Fin 512) :
    idx_main_v5 (ix3 r g l) = ix2 r (gcol g l) :=
  funext fun a => Fin.ext (by
    have hr := r.isLt; have hg := g.isLt; have hl := l.isLt
    match a with
    | ⟨0, _⟩ => show ((r.val * 16 + g.val) * 512 + l.val) / 8192 = r.val; omega
    | ⟨1, _⟩ => show ((r.val * 16 + g.val) * 512 + l.val) % 8192 = g.val * 512 + l.val; omega)

/-- Gluing the groups back into a row: entry (r, g * 512 + l) has flat position r * 8192 + g * 512 + l, which splits as
    row r, group g, place l, because l stays below 512 and g below 16. -/
theorem merge_groups_index (r : Fin 4096) (g : Fin 16) (l : Fin 512) :
    idx_main_v24 (ix2 r (gcol g l)) = ix3 r g l :=
  funext fun a => Fin.ext (by
    have hr := r.isLt; have hg := g.isLt; have hl := l.isLt
    match a with
    | ⟨0, _⟩ => show (r.val * 8192 + (g.val * 512 + l.val)) / 8192 = r.val; omega
    | ⟨1, _⟩ => show (r.val * 8192 + (g.val * 512 + l.val)) / 512 % 16 = g.val; omega
    | ⟨2, _⟩ => show (r.val * 8192 + (g.val * 512 + l.val)) % 512 = l.val; omega)

/-- The k-th term of the sum that gives the mean of group (r, g) is the entry at (r, g, k). The third coordinate z of
    the kept-axis array has one value only. -/
theorem mean_term_index (r : Fin 4096) (g : Fin 16) (z : Fin 1) (k : Fin 512) :
    idx_main_v6 (idx_main_v7 (ix3 r g z)) k = ix3 r g k :=
  funext fun a => Fin.ext (by match a with | ⟨0, _⟩ => rfl | ⟨1, _⟩ => rfl | ⟨2, _⟩ => rfl)

/-- The same for the sum that gives the variance. -/
theorem variance_term_index (r : Fin 4096) (g : Fin 16) (z : Fin 1) (k : Fin 512) :
    idx_main_v13 (idx_main_v14 (ix3 r g z)) k = ix3 r g k :=
  funext fun a => Fin.ext (by match a with | ⟨0, _⟩ => rfl | ⟨1, _⟩ => rfl | ⟨2, _⟩ => rfl)

/-- A per-group quantity spread along its group is read, at every place l, at the group's one entry (r, g, 0): the mean
    inside the variance … -/
theorem mean_for_variance_index (r : Fin 4096) (g : Fin 16) (l : Fin 512) : idx_main_v10 (ix3 r g l) = ix3 r g 0 :=
  funext fun a => Fin.ext (by match a with | ⟨0, _⟩ => rfl | ⟨1, _⟩ => rfl | ⟨2, _⟩ => rfl)

/-- … the mean subtracted from the entry that is normalised … -/
theorem mean_for_centring_index (r : Fin 4096) (g : Fin 16) (l : Fin 512) : idx_main_v17 (ix3 r g l) = ix3 r g 0 :=
  funext fun a => Fin.ext (by match a with | ⟨0, _⟩ => rfl | ⟨1, _⟩ => rfl | ⟨2, _⟩ => rfl)

/-- … and the reciprocal square root that scales it. -/
theorem scale_index (r : Fin 4096) (g : Fin 16) (l : Fin 512) : idx_main_v22 (ix3 r g l) = ix3 r g 0 :=
  funext fun a => Fin.ext (by match a with | ⟨0, _⟩ => rfl | ⟨1, _⟩ => rfl | ⟨2, _⟩ => rfl)

/-! ## The stages, bottom-up

Each stage is read at explicit coordinates from the stages below it; the arithmetic of the ideal instance is the
extended reals' own, so once the operands are identified the two sides are the same expression. -/

section
variable (x0 : FVec Ideal S4096x2048 .f32) (x1 : FVec Ideal S8192x2048 .f32) (x2 x3 x4 x5 : FVec Ideal S8192 .f32)

/-- The linear layer: the product against the transposed weight is the sum over k of x(r, k) * w(c, k), and the bias of
    column c is added to it. -/
theorem linear_at (r : Fin 4096) (c : Fin 8192) :
    val_main_v4 (F := Ideal) x0 x1 x2 (ix2 r c) = lin x0 x1 x2 r c := by
  rw [val_main_v4_apply, val_main_v1_apply, val_main_v3_apply, val_main_v2_apply, bias_index]
  show (∑ k : Fin 2048, x0 (lidx_main_v1 (ix2 r c) k) * val_main_v0 (F := Ideal) x1 (ridx_main_v1 (ix2 r c) k))
      + x2 (ix1 c) = (∑ k : Fin 2048, x0 (ix2 r k) * x1 (ix2 c k)) + x2 (ix1 c)
  refine congrArg (· + x2 (ix1 c)) (Finset.sum_congr rfl fun k _ => ?_)
  rw [val_main_v0_apply, product_left_index, product_right_index]

/-- Cut into groups, entry (r, g, l) is the linear layer at column g * 512 + l. -/
theorem grouped_linear_at (r : Fin 4096) (g : Fin 16) (l : Fin 512) :
    val_main_v5 (F := Ideal) x0 x1 x2 (ix3 r g l) = lin x0 x1 x2 r (gcol g l) := by
  rw [val_main_v5_apply, split_into_groups_index, linear_at]

/-- The mean of group (r, g): the sum starts from the word of zero, which is the extended real zero, so it is the plain
    sum over the group; the divisor is the word of 512 on both sides and is not evaluated. -/
theorem mean_at (r : Fin 4096) (g : Fin 16) (z : Fin 1) :
    val_main_v9 (F := Ideal) x0 x1 x2 (ix3 r g z) = gmean (fun l => lin x0 x1 x2 r (gcol g l)) := by
  rw [val_main_v9_apply, val_main_v7_apply, val_main_v6_apply, val_main_v8_apply, val_main_cst_apply,
    val_main_cst_0_apply]
  show Ideal.div (Ideal.ofBits .f32 0x00000000#32
      + ∑ k : Fin 512, val_main_v5 (F := Ideal) x0 x1 x2 (idx_main_v6 (idx_main_v7 (ix3 r g z)) k)) n512
    = Ideal.div (∑ l : Fin 512, lin x0 x1 x2 r (gcol g l)) n512
  rw [Ideal.ofBits_zero_f32, zero_add]
  refine congrArg (Ideal.div · n512) (Finset.sum_congr rfl fun k _ => ?_)
  rw [mean_term_index, grouped_linear_at]

/-- The entry minus its group's mean, as it enters the variance. -/
theorem centred_for_variance_at (r : Fin 4096) (g : Fin 16) (l : Fin 512) :
    val_main_v11 (F := Ideal) x0 x1 x2 (ix3 r g l)
      = lin x0 x1 x2 r (gcol g l) - gmean (fun l' => lin x0 x1 x2 r (gcol g l')) := by
  rw [val_main_v11_apply, val_main_v10_apply, mean_for_variance_index, mean_at, grouped_linear_at]
  rfl

/-- The entry minus its group's mean, as it enters the normalised entry: the same difference, computed a second time. -/
theorem centred_at (r : Fin 4096) (g : Fin 16) (l : Fin 512) :
    val_main_v18 (F := Ideal) x0 x1 x2 (ix3 r g l)
      = lin x0 x1 x2 r (gcol g l) - gmean (fun l' => lin x0 x1 x2 r (gcol g l')) := by
  rw [val_main_v18_apply, val_main_v17_apply, mean_for_centring_index, mean_at, grouped_linear_at]
  rfl

/-- The variance of group (r, g): the sum of the squared differences, again from the zero word, over the word of 512. -/
theorem variance_at (r : Fin 4096) (g : Fin 16) (z : Fin 1) :
    val_main_v16 (F := Ideal) x0 x1 x2 (ix3 r g z) = gvar (fun l => lin x0 x1 x2 r (gcol g l)) := by
  rw [val_main_v16_apply, val_main_v14_apply, val_main_v13_apply, val_main_v15_apply, val_main_cst_1_apply,
    val_main_cst_2_apply]
  show Ideal.div (Ideal.ofBits .f32 0x00000000#32
      + ∑ k : Fin 512, val_main_v12 (F := Ideal) x0 x1 x2 (idx_main_v13 (idx_main_v14 (ix3 r g z)) k)) n512
    = Ideal.div (∑ l : Fin 512, (lin x0 x1 x2 r (gcol g l) - gmean (fun l' => lin x0 x1 x2 r (gcol g l')))
        * (lin x0 x1 x2 r (gcol g l) - gmean (fun l' => lin x0 x1 x2 r (gcol g l')))) n512
  rw [Ideal.ofBits_zero_f32, zero_add]
  refine congrArg (Ideal.div · n512) (Finset.sum_congr rfl fun k _ => ?_)
  rw [variance_term_index, val_main_v12_apply, centred_for_variance_at]
  rfl

/-- The scale of group (r, g): the reciprocal square root of the variance plus the small constant, whose word is the
    specification's and is not evaluated. -/
theorem scale_at (r : Fin 4096) (g : Fin 16) (z : Fin 1) :
    val_main_v21 (F := Ideal) x0 x1 x2 (ix3 r g z)
      = Ideal.rsqrt (gvar (fun l => lin x0 x1 x2 r (gcol g l)) + eps) := by
  rw [val_main_v21_apply, val_main_v20_apply, val_main_v19_apply, val_main_cst_3_apply, variance_at]
  rfl

/-- The normalised entry (r, g, l): the centred entry times the group's scale. -/
theorem normalised_at (r : Fin 4096) (g : Fin 16) (l : Fin 512) :
    val_main_v23 (F := Ideal) x0 x1 x2 (ix3 r g l) = gnorm (fun l' => lin x0 x1 x2 r (gcol g l')) l := by
  rw [val_main_v23_apply, val_main_v22_apply, scale_index, scale_at, centred_at]
  rfl

/-- Glued back into rows, the entry at column g * 512 + l is the normalised entry l of group g. -/
theorem normalised_row_at (r : Fin 4096) (g : Fin 16) (l : Fin 512) :
    val_main_v24 (F := Ideal) x0 x1 x2 (ix2 r (gcol g l)) = gnorm (fun l' => lin x0 x1 x2 r (gcol g l')) l := by
  rw [val_main_v24_apply, merge_groups_index, normalised_at]

/-- The affine map: times the column's weight, plus the column's bias. -/
theorem affine_at (r : Fin 4096) (g : Fin 16) (l : Fin 512) :
    val_main_v30 (F := Ideal) x0 x1 x2 x3 x4 (ix2 r (gcol g l))
      = gnorm (fun l' => lin x0 x1 x2 r (gcol g l')) l * x3 (ix1 (gcol g l)) + x4 (ix1 (gcol g l)) := by
  rw [val_main_v30_apply, val_main_v27_apply, val_main_v26_apply, val_main_v25_apply, affine_weight_index,
    val_main_v29_apply, val_main_v28_apply, affine_bias_index, normalised_row_at]
  rfl

/-- The first expanded sigmoid, at any index: 1 / (1 + exp(-a)) with both ones the word of one, which is the extended
    real one; that expression is the logistic function of a by definition. -/
theorem first_logistic_at (i : S4096x8192.Idx) :
    val_main_v36 (F := Ideal) x0 x1 x2 x3 x4 i = Ideal.logistic (val_main_v30 (F := Ideal) x0 x1 x2 x3 x4 i) := by
  rw [val_main_v36_apply, val_main_v35_apply, val_main_cst_5_apply, val_main_v34_apply, val_main_v33_apply,
    val_main_cst_4_apply, val_main_v32_apply, val_main_v31_apply]
  show Ideal.div (Ideal.ofBits .f32 0x3F800000#32)
      (Ideal.ofBits .f32 0x3F800000#32 + Ideal.exp (-(val_main_v30 (F := Ideal) x0 x1 x2 x3 x4 i)))
    = Ideal.div 1 (1 + Ideal.exp (-(val_main_v30 (F := Ideal) x0 x1 x2 x3 x4 i)))
  rw [Ideal.ofBits_one_f32]

/-- The first swish times the column's multiplier. -/
theorem multiplied_at (r : Fin 4096) (g : Fin 16) (l : Fin 512) :
    val_main_v40 (F := Ideal) x0 x1 x2 x3 x4 x5 (ix2 r (gcol g l))
      = swish (gnorm (fun l' => lin x0 x1 x2 r (gcol g l')) l * x3 (ix1 (gcol g l)) + x4 (ix1 (gcol g l)))
          * x5 (ix1 (gcol g l)) := by
  rw [val_main_v40_apply, val_main_v37_apply, first_logistic_at, affine_at, val_main_v39_apply, val_main_v38_apply,
    multiplier_index]
  rfl

/-- The second expanded sigmoid, at any index, is the logistic function of its argument in the same way. -/
theorem second_logistic_at (i : S4096x8192.Idx) :
    val_main_v46 (F := Ideal) x0 x1 x2 x3 x4 x5 i
      = Ideal.logistic (val_main_v40 (F := Ideal) x0 x1 x2 x3 x4 x5 i) := by
  rw [val_main_v46_apply, val_main_v45_apply, val_main_cst_7_apply, val_main_v44_apply, val_main_v43_apply,
    val_main_cst_6_apply, val_main_v42_apply, val_main_v41_apply]
  show Ideal.div (Ideal.ofBits .f32 0x3F800000#32)
      (Ideal.ofBits .f32 0x3F800000#32 + Ideal.exp (-(val_main_v40 (F := Ideal) x0 x1 x2 x3 x4 x5 i)))
    = Ideal.div 1 (1 + Ideal.exp (-(val_main_v40 (F := Ideal) x0 x1 x2 x3 x4 x5 i)))
  rw [Ideal.ofBits_one_f32]

/-- The last stage at column g * 512 + l of row r: the second swish, that is the whole activation of the normalised
    entry with the column's weight, bias and multiplier. -/
theorem last_stage_at (r : Fin 4096) (g : Fin 16) (l : Fin 512) :
    val_main_v47 (F := Ideal) x0 x1 x2 x3 x4 x5 (ix2 r (gcol g l))
      = act (gnorm (fun l' => lin x0 x1 x2 r (gcol g l')) l)
          (x3 (ix1 (gcol g l))) (x4 (ix1 (gcol g l))) (x5 (ix1 (gcol g l))) := by
  rw [val_main_v47_apply, second_logistic_at, multiplied_at]
  rfl

end

/-- The reference's result is the specified function of its six arguments. -/
theorem reference_is_result (x0 : FVec Ideal S4096x2048 .f32) (x1 : FVec Ideal S8192x2048 .f32)
    (x2 x3 x4 x5 : FVec Ideal S8192 .f32) :
    val_main_v47 (F := Ideal) x0 x1 x2 x3 x4 x5 = result x0 x1 x2 x3 x4 x5 := by
  funext i
  -- every index is a row and a column, and every column is a place in a group
  obtain ⟨r, c, rfl⟩ : ∃ (r : Fin 4096) (c : Fin 8192), i = ix2 r c := ⟨i 0, i 1, eq_ix2 i⟩
  obtain ⟨g, l, rfl⟩ : ∃ (g : Fin 16) (l : Fin 512), c = gcol g l := ⟨grp c, lane c, (gcol_grp_lane c).symm⟩
  exact (last_stage_at x0 x1 x2 x3 x4 x5 r g l).trans (result_gcol x0 x1 x2 x3 x4 x5 r g l).symm

end Cert.ReferenceIdeal.RefValue

end
-- ==== Proof.lean ====
/-
  A fused linear layer, group normalisation and two swishes on the accelerator against the same computation written in
  array operations: equal as functions over the extended reals.

  Both compute, for a 4096 x 2048 input x, an 8192 x 2048 weight w and four vectors of length 8192 (bias b, scale gw,
  shift gb, multiplier mw): y = x w^T + b; each row of y cut into sixteen groups of 512 columns, each group centred by
  its mean and scaled by the reciprocal square root of its variance plus a small constant; then a * gw + gb, the swish
  a * logistic(a), times mw, and the swish again.

  The kernel works on blocks of 512 rows and 1024 columns (two whole groups) and accumulates the matrix product over
  the contraction axis in two halves of 1024; the reference contracts all 2048 at once. The only rearrangement between
  them is that a sum over 2048 indices is the sum over the first 1024 plus the sum over the last 1024, which holds on
  the extended reals since addition there is commutative and associative: no entry needs to be finite for it, and the
  precondition is not opened. Everything else is the same operation on both sides: narrowing to a shorter float format
  is the identity here, both averages divide by the same word for 512, the small constant is the same word, the
  reciprocal square root is one function, and the reference's 1 / (1 + exp(-a)) is the logistic function by definition.

  The pieces: GroupNormSpec (the function, over plain coordinates), CaseContents (what one run of the kernel body
  leaves), PayloadAtIndex (its stored values at an index), KernelValue (the result array after the kernel's run),
  ReferenceValue (the reference's last stage is the function). The three frames are the generated runs; the ideal pass
  rewrote nothing, so the kernel's idealisation is its own text.
-/
import proofs.«139624_j19688130085476_1_alg».proof.Defs
import proofs.«139624_j19688130085476_1_alg».proof.Proof.Gen.Kernel
import proofs.«139624_j19688130085476_1_alg».proof.Proof.Gen.Kernel.Skeleton
import proofs.«139624_j19688130085476_1_alg».proof.Proof.Gen.Kernel.Launch
import proofs.«139624_j19688130085476_1_alg».proof.Proof.Gen.Kernel.Points
import proofs.«139624_j19688130085476_1_alg».proof.Proof.Gen.Kernel.Frame
import proofs.«139624_j19688130085476_1_alg».proof.Proof.Gen.KernelIdeal
import proofs.«139624_j19688130085476_1_alg».proof.Proof.Gen.KernelIdeal.Skeleton
import proofs.«139624_j19688130085476_1_alg».proof.Proof.Gen.KernelIdeal.Launch
import proofs.«139624_j19688130085476_1_alg».proof.Proof.Gen.KernelIdeal.Points
import proofs.«139624_j19688130085476_1_alg».proof.Proof.Gen.KernelIdeal.Frame
import proofs.«139624_j19688130085476_1_alg».proof.Proof.Gen.ReferenceIdeal
import proofs.«139624_j19688130085476_1_alg».proof.Proof.Gen.Pre_finite_inputs
import proofs.«139624_j19688130085476_1_alg».proof.Proof.Gen.KernelIdeal.Value
import proofs.«139624_j19688130085476_1_alg».proof.Proof.Gen.ReferenceIdeal.Run
import proofs.«139624_j19688130085476_1_alg».proof.Proof.Gen.ReferenceIdeal.Read
import proofs.«139624_j19688130085476_1_alg».proof.Proof.KernelValue
import proofs.«139624_j19688130085476_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs, and leaves its arguments alone. -/
theorem frame_kernel [Cert.Kernel.Facts] [Cert.Pre_finite_inputs.Facts] : Cert.frame_Kernel :=
  fun m ρ _ => Cert.Kernel.Gen.frame m ρ

/-- So does its idealisation. -/
theorem frame_kernel_ideal [Cert.KernelIdeal.Facts] [Cert.Pre_finite_inputs.Facts] : Cert.frame_KernelIdeal :=
  fun m ρ _ => Cert.KernelIdeal.Gen.frame m ρ

/-- The reference's run, with what it says of the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the six arguments, the kernel's result array ends at the specified function of its
    arguments and the reference's last stage is the specified function of its own: the same array. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KernelValue.specified m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.ReferenceIdeal.RefValue.reference_is_result,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
